-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S1024x1024 : Shape := ⟨2, ![1024, 1024]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x4096 .f32) (main_arg1 : FVec F S4096x4096 .f32) (main_arg2 : FVec F S4096 .f32) (main_arg3 : FVec F S1024x1024 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S1024x1024 : Shape := ⟨2, ![1024, 1024]⟩
abbrev S16384x4096 : Shape := ⟨2, ![16384, 4096]⟩
abbrev S1x4096 : Shape := ⟨2, ![1, 4096]⟩
abbrev S512x1024 : Shape := ⟨2, ![512, 1024]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S1024x1024, .f32⟩
  | .hbm, ⟨4, _⟩ => ⟨S16384x4096, .f32⟩
  | .hbm, ⟨5, _⟩ => ⟨S1x4096, .f32⟩
  | .hbm, ⟨6, _⟩ => ⟨S16384x4096, .f32⟩
  | .hbm, ⟨7, _⟩ => ⟨S4x4096x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![32, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x4096x4096_S16384x4096 : S4x4096x4096.ShapeCasts S16384x4096
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x4096_S4x4096x4096 : S16384x4096.ShapeCasts S4x4096x4096
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x4096.size a
  hwx0_0 : ∀ i : grid0.Coords, EltTy.bits .f32 = 32 ∨ (Rect.block (s := S16384x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x4096.size a
  hwx0_4 : ∀ i : grid0.Coords, EltTy.bits .f32 = 32 ∨ (Rect.block (s := S16384x4096) S512x1024.size (cc0_transform_4 i) (hinb0_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S1024x1024 : Shape := ⟨2, ![1024, 1024]⟩
abbrev S1x1x4096 : Shape := ⟨3, ![1, 1, 4096]⟩
abbrev S4x4096x4x1024 : Shape := ⟨4, ![4, 4096, 4, 1024]⟩
abbrev S_ : Shape := ⟨0, ![]⟩
abbrev S4x4096x1024 : Shape := ⟨3, ![4, 4096, 1024]⟩
abbrev S1x4x1x4096x1x1024 : Shape := ⟨6, ![1, 4, 1, 4096, 1, 1024]⟩
abbrev S1x4x1x4096x4x1024 : Shape := ⟨6, ![1, 4, 1, 4096, 4, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S1024x1024, .f32⟩
  | .hbm, ⟨4, _⟩ => ⟨S4x4096x4096, .f32⟩
  | .hbm, ⟨5, _⟩ => ⟨S1x1x4096, .f32⟩
  | .hbm, ⟨6, _⟩ => ⟨S4x4096x4096, .f32⟩
  | .hbm, ⟨7, _⟩ => ⟨S4x4096x4096, .f32⟩
  | .hbm, ⟨8, _⟩ => ⟨S4x4096x4x1024, .f32⟩
  | .hbm, ⟨9, _⟩ => ⟨S_, .f32⟩
  | .hbm, ⟨10, _⟩ => ⟨S4x4096x1024, .f32⟩
  | .hbm, ⟨11, _⟩ => ⟨S4x4096x1024, .f32⟩
  | .hbm, ⟨12, _⟩ => ⟨S1x4x1x4096x1x1024, .f32⟩
  | .hbm, ⟨13, _⟩ => ⟨S1x4x1x4096x4x1024, .f32⟩
  | .hbm, ⟨14, _⟩ => ⟨S4x4096x4096, .f32⟩
  | .hbm, ⟨15, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  shapeCasts_S4x4096x4096_S4x4096x4x1024 : S4x4096x4096.ShapeCasts S4x4096x4x1024
  reducesTo_S4x4096x4x1024_S4x4096x1024_d2 : S4x4096x4x1024.ReducesTo [2] S4x4096x1024
  h_S_ : 0 < S_.numel
  shapeCasts_S4x4096x1024_S1x4x1x4096x1x1024 : S4x4096x1024.ShapeCasts S1x4x1x4096x1x1024
  bcast_S1x4x1x4096x1x1024_S1x4x1x4096x4x1024_0_1_2_3_4_5 : S1x4x1x4096x1x1024.BroadcastsInDim S1x4x1x4096x4x1024 (![0, 1, 2, 3, 4, 5] : Fin 6 → Fin S1x4x1x4096x4x1024.rank)
  shapeCasts_S1x4x1x4096x4x1024_S4x4096x4096 : S1x4x1x4096x4x1024.ShapeCasts S4x4096x4096
  dot_S4x4096x4096_S4096x4096_S4x4096x4096_2_1_01_0_n_n_wf : DotDims.WF S4x4096x4096 S4096x4096 S4x4096x4096 [2] [1] [0, 1] [0] [] []
  dot_S4x4096x1024_S1024x1024_S4x4096x1024_2_1_01_0_n_n_wf : DotDims.WF S4x4096x1024 S1024x1024 S4x4096x1024 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.Spec.lean ====
import Idealize.ShloMosaic.PureOps.Ideal.Laws
import Idealize.ShloMosaic.Lib.ValueIdx

/-!
  The arithmetic of one output entry, over the extended reals.

  One entry of the result depends on a row `xr` of x (4096 entries), a row `wr` of W (4096 entries), one entry `bo` of
  the bias and a row `ar` of A (1024 entries). The reference computes

      (∑ c < 4096, xr c · wr c  +  bo)  +  ∑ t < 1024, (0 + ∑ g < 4, xr (1024·g + t)) · ar t.

  The kernel walks the 4096 columns in four blocks of 1024 and keeps two running sums that start at zero: the
  products of block k are added to the first, the entries of block k to the second; after the fourth block it returns
  (first + bo) + ∑ t, second t · ar t. The two agree because a sum over 4096 columns is the sum over its four blocks
  of 1024, and addition of extended reals is commutative and associative with 0 as its unit. No distributivity and no
  cancellation is used, so nothing here asks the entries to be finite.
-/

open scoped BigOperators

noncomputable section

namespace Cert.Mora

/-- Column `1024·k + t` of a row of 4096 entries: entry `t` of block `k`. The block number is a natural number and
    the column is taken modulo 4096 so that the definition is total; for `k < 4` nothing wraps (`col_val`). -/
def col (k : ℕ) (t : Fin 1024) : Fin 4096 := ⟨(1024 * k + t.val) % 4096, Nat.mod_lt _ (by norm_num)⟩

theorem col_val (k : ℕ) (hk : k < 4) (t : Fin 1024) : (col k t).val = 1024 * k + t.val := by
  show (1024 * k + t.val) % 4096 = _
  have := t.isLt
  omega

/-- The running sum of the first `n` terms of a sequence, accumulated from zero on the left:
    `((0 + a 0) + a 1) + …`. -/
def accum (a : ℕ → EReal) : ℕ → EReal
  | 0 => 0
  | n + 1 => accum a n + a n

theorem accum_zero (a : ℕ → EReal) : accum a 0 = 0 := rfl

theorem accum_succ (a : ℕ → EReal) (n : ℕ) : accum a (n + 1) = accum a n + a n := rfl

theorem accum_four (a : ℕ → EReal) : accum a 4 = 0 + a 0 + a 1 + a 2 + a 3 := rfl

/-- A sum over 4096 columns is the sum, over the four blocks, of the sums over each block's 1024 columns. -/
theorem sum_cols (f : Fin 4096 → EReal) : ∑ c : Fin 4096, f c = ∑ k : Fin 4, ∑ t : Fin 1024, f (col k.val t) := by
  rw [← Equiv.sum_comp (finProdFinEquiv : Fin 4 × Fin 1024 ≃ Fin 4096) f, Fintype.sum_prod_type]
  refine Finset.sum_congr rfl fun k _ => Finset.sum_congr rfl fun t _ => congrArg f (Fin.ext ?_)
  show t.val + 1024 * k.val = (1024 * k.val + t.val) % 4096
  have := t.isLt
  have := k.isLt
  omega

/-- Four blocks accumulated from zero give the whole sum. -/
theorem accum_blocks (f : Fin 4096 → EReal) :
    accum (fun k => ∑ t : Fin 1024, f (col k t)) 4 = ∑ c : Fin 4096, f c := by
  rw [sum_cols, Fin.sum_univ_four, accum_four, zero_add]
  rfl

/-- Four terms accumulated from zero are zero plus their sum. -/
theorem accum_eq_zero_add_sum (a : ℕ → EReal) : accum a 4 = 0 + ∑ g : Fin 4, a g.val := by
  rw [Fin.sum_univ_four, accum_four, zero_add, zero_add]
  rfl

/-- The products of block `k`: `∑ t < 1024, xr (1024·k + t) · wr (1024·k + t)`. -/
def mainTerm (xr wr : Fin 4096 → EReal) (k : ℕ) : EReal := ∑ t : Fin 1024, xr (col k t) * wr (col k t)

/-- Entry `t` of block `k` of the row of x. -/
def foldTerm (xr : Fin 4096 → EReal) (t : Fin 1024) (k : ℕ) : EReal := xr (col k t)

/-- One output entry as the kernel accumulates it. -/
def kernelOut (xr wr : Fin 4096 → EReal) (bo : EReal) (ar : Fin 1024 → EReal) : EReal :=
  (accum (mainTerm xr wr) 4 + bo) + ∑ t : Fin 1024, accum (foldTerm xr t) 4 * ar t

/-- One output entry as the reference computes it. -/
def refOut (xr wr : Fin 4096 → EReal) (bo : EReal) (ar : Fin 1024 → EReal) : EReal :=
  (∑ c : Fin 4096, xr c * wr c + bo) + ∑ t : Fin 1024, (0 + ∑ g : Fin 4, xr (col g.val t)) * ar t

/-- The kernel's entry is the reference's. -/
theorem kernelOut_eq_refOut (xr wr : Fin 4096 → EReal) (bo : EReal) (ar : Fin 1024 → EReal) :
    kernelOut xr wr bo ar = refOut xr wr bo ar := by
  unfold kernelOut refOut
  have h1 : accum (mainTerm xr wr) 4 = ∑ c : Fin 4096, xr c * wr c := accum_blocks fun c => xr c * wr c
  have h2 : ∀ t : Fin 1024, accum (foldTerm xr t) 4 = 0 + ∑ g : Fin 4, xr (col g.val t) :=
    fun t => accum_eq_zero_add_sum (foldTerm xr t)
  rw [h1]
  simp only [h2]

/-- The column of the adapter's 1024-wide output that is added into column `o` of the result: `o mod 1024`. -/
def wrap (o : Fin 4096) : Fin 1024 := ⟨o.val % 1024, Nat.mod_lt _ (by norm_num)⟩

end Cert.Mora

end
-- ==== Proof.Result.lean ====
import proofs.«143086_j89266600280130_1_alg».proof.Proof.Spec
import Idealize.ShloMosaic.Lib.ValueIdx

/-!
  The result array as one function of the four argument arrays.

  Entry (bb, s, o) of the result is the reference's formula for one output entry, of row (bb, s) of x, row o of W, entry o
  of the bias and row (o mod 1024) of A. Both programs' results are stated at this one function.
-/

noncomputable section

open Idealize.ShloMosaic Idealize.ShloMosaic.ValueIdx

namespace Cert.Mora

/-- One entry of the result, at explicit coordinates. -/
def entry (x : (⟨3, ![4, 4096, 4096]⟩ : Shape).Idx → EReal) (W : (⟨2, ![4096, 4096]⟩ : Shape).Idx → EReal)
    (b : (⟨1, ![4096]⟩ : Shape).Idx → EReal) (A : (⟨2, ![1024, 1024]⟩ : Shape).Idx → EReal)
    (bb : Fin 4) (s : Fin 4096) (o : Fin 4096) : EReal :=
  refOut (fun c => x (ix3 bb s c)) (fun c => W (ix2 o c)) (b (ix1 o)) (fun t => A (ix2 (wrap o) t))

/-- The result array. -/
def result (x : (⟨3, ![4, 4096, 4096]⟩ : Shape).Idx → EReal) (W : (⟨2, ![4096, 4096]⟩ : Shape).Idx → EReal)
    (b : (⟨1, ![4096]⟩ : Shape).Idx → EReal) (A : (⟨2, ![1024, 1024]⟩ : Shape).Idx → EReal) :
    (⟨3, ![4, 4096, 4096]⟩ : Shape).Idx → EReal :=
  fun i => entry x W b A (i 0) (i 1) (i 2)

theorem result_ix3 (x : (⟨3, ![4, 4096, 4096]⟩ : Shape).Idx → EReal) (W : (⟨2, ![4096, 4096]⟩ : Shape).Idx → EReal)
    (b : (⟨1, ![4096]⟩ : Shape).Idx → EReal) (A : (⟨2, ![1024, 1024]⟩ : Shape).Idx → EReal)
    (bb : Fin 4) (s : Fin 4096) (o : Fin 4096) : result x W b A (ix3 bb s o) = entry x W b A bb s o := rfl

end Cert.Mora

end
-- ==== Proof.Blocks.lean ====
import proofs.«143086_j89266600280130_1_alg».proof.Proof.Gen.KernelIdeal.Frame
import proofs.«143086_j89266600280130_1_alg».proof.Proof.Spec
import Idealize.ShloMosaic.Lib.Pipeline.Value
import Idealize.ShloMosaic.Lib.ValueIdx
import Idealize.ShloMosaic.Lib.StableHlo.Run

/-!
  Where each block the kernel is handed sits in its array.

  The grid has 32 · 4 · 4 = 512 points; point n has row-block i = n / 16, column-block j = n / 4 mod 4 and reduction step
  k = n mod 4. At point n the body is handed

    * rows 512·i … 512·i + 511 and columns 1024·k … 1024·k + 1023 of x (flattened to 16384 rows of 4096),
    * rows 1024·j … and columns 1024·k … of W,
    * columns 1024·j … of the bias (as one row of 4096),
    * all of A,

  and it writes rows 512·i …, columns 1024·j … of the result. A block's entry (p, q) is therefore the array's entry at
  (block index · block size + p, block index · block size + q) on each axis.

  The two reshapes before the kernel only regroup: entry (r, c) of the flattened x is entry (r / 4096, r mod 4096, c) of
  x, and entry (0, o) of the bias row is entry o of the bias.
-/

noncomputable section

open Idealize.ShloMosaic Idealize.ShloMosaic.TcCoe Idealize.SL.Sem Idealize.ShloMosaic.ValueIdx

namespace Cert.Mora.Blocks

open Cert.KernelIdeal Cert.KernelIdeal.Gen Cert.Mora

variable (m : (ℓ : Loc nD τ sig) → Buf (Elt Ideal) ℓ)

/-- The arrays the kernel's windows are cut from, as the kernel finds them, at their literal shapes. -/
abbrev xarr (c : Dev nD) : Vec Ideal S16384x4096 .f32 := V m c main_v0
abbrev warr (c : Dev nD) : Vec Ideal S4096x4096 .f32 := V m c main_arg1
abbrev barr (c : Dev nD) : Vec Ideal S1x4096 .f32 := V m c main_v1
abbrev aarr (c : Dev nD) : Vec Ideal S1024x1024 .f32 := V m c main_arg3

/-- The blocks handed to the body at a grid point, at their literal shapes. -/
abbrev xblk (c : Dev nD) (t : Fin cfg0.N) : Vec Ideal S512x1024 .f32 := iblk m c 0 t
abbrev wblk (c : Dev nD) (t : Fin cfg0.N) : Vec Ideal S1024x1024 .f32 := iblk m c 1 t
abbrev bblk (c : Dev nD) (t : Fin cfg0.N) : Vec Ideal S1x1024 .f32 := iblk m c 2 t
abbrev ablk (c : Dev nD) (t : Fin cfg0.N) : Vec Ideal S1024x1024 .f32 := iblk m c 3 t

/-- Row `512·(n / 16) + p` of the flattened x: row `p` of the row-block of grid point `n` (modulo 16384 so that the
    definition is total; for `n < 512` nothing wraps). -/
def rowOf (n : ℕ) (p : Fin 512) : Fin 16384 := ⟨(512 * (n / 16) + p.val) % 16384, Nat.mod_lt _ (by norm_num)⟩

theorem rowOf_val (n : ℕ) (hn : n < 512) (p : Fin 512) : (rowOf n p).val = 512 * (n / 16) + p.val := by
  show (512 * (n / 16) + p.val) % 16384 = _
  have := p.isLt
  omega

/-- The block indices of the five windows at a grid point, decided over the grid. -/
theorem index0 : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
theorem index1 : ∀ t : Fin cfg0.N, win0_1.index t 0 = t.val / 4 % 4 ∧ win0_1.index t 1 = t.val % 4 :=
  (by decide +kernel : ∀ t : Fin grid0.N, win0_1.index t 0 = t.val / 4 % 4 ∧ win0_1.index t 1 = t.val % 4)
theorem index2 : ∀ t : Fin cfg0.N, win0_2.index t 0 = 0 ∧ win0_2.index t 1 = t.val / 4 % 4 :=
  (by decide +kernel : ∀ t : Fin grid0.N, win0_2.index t 0 = 0 ∧ win0_2.index t 1 = t.val / 4 % 4)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val / 16 ∧ win0_4.index t 1 = t.val / 4 % 4 :=
  (by decide +kernel : ∀ t : Fin grid0.N, win0_4.index t 0 = t.val / 16 ∧ win0_4.index t 1 = t.val / 4 % 4)

/-- Entry (p, q) of the block of x at a point is x at (its row-block's row p, its reduction step's column q). -/
theorem xblk_apply (c : Dev nD) (t : Fin cfg0.N) (p : Fin 512) (q : Fin 1024) :
    xblk m c t (ix2 p q) = xarr m c (ix2 (rowOf t.val p) (col (t.val % 4) q)) := by
  obtain ⟨h0, h1⟩ := index0 t
  have hp := p.isLt
  have hq := q.isLt
  have hN : t.val < 512 := lt_of_lt_of_eq t.isLt N_0
  show iblk m c 0 t (ix2 p q) = _
  unfold iblk
  rw [View.read_apply]
  show V m c main_v0 _ = V m c main_v0 _
  congr 1
  funext a
  apply Fin.ext
  match a with
  | ⟨0, _⟩ => show win0_0.index t 0 * 512 + 1 * p.val = (512 * (t.val / 16) + p.val) % 16384; rw [h0]; omega
  | ⟨1, _⟩ => show win0_0.index t 1 * 1024 + 1 * q.val = (1024 * (t.val % 4) + q.val) % 4096; rw [h1]; omega

/-- Entry (q, s) of the block of W at a point is W at (its column-block's row q, its reduction step's column s). -/
theorem wblk_apply (c : Dev nD) (t : Fin cfg0.N) (q : Fin 1024) (s : Fin 1024) :
    wblk m c t (ix2 q s) = warr m c (ix2 (col (t.val / 4 % 4) q) (col (t.val % 4) s)) := by
  obtain ⟨h0, h1⟩ := index1 t
  have hq := q.isLt
  have hs := s.isLt
  show iblk m c 1 t (ix2 q s) = _
  unfold iblk
  rw [View.read_apply]
  show V m c main_arg1 _ = V m c main_arg1 _
  congr 1
  funext a
  apply Fin.ext
  match a with
  | ⟨0, _⟩ => show win0_1.index t 0 * 1024 + 1 * q.val = (1024 * (t.val / 4 % 4) + q.val) % 4096; rw [h0]; omega
  | ⟨1, _⟩ => show win0_1.index t 1 * 1024 + 1 * s.val = (1024 * (t.val % 4) + s.val) % 4096; rw [h1]; omega

/-- Entry (0, q) of the block of the bias row at a point is the bias row at its column-block's column q. -/
theorem bblk_apply (c : Dev nD) (t : Fin cfg0.N) (q : Fin 1024) :
    bblk m c t (ix2 (0 : Fin 1) q) = barr m c (ix2 (0 : Fin 1) (col (t.val / 4 % 4) q)) := by
  obtain ⟨h0, h1⟩ := index2 t
  have hq := q.isLt
  show iblk m c 2 t (ix2 (0 : Fin 1) q) = _
  unfold iblk
  rw [View.read_apply]
  show V m c main_v1 _ = V m c main_v1 _
  congr 1
  funext a
  apply Fin.ext
  match a with
  | ⟨0, _⟩ => show win0_2.index t 0 * 1 + 1 * 0 = 0; rw [h0]
  | ⟨1, _⟩ => show win0_2.index t 1 * 1024 + 1 * q.val = (1024 * (t.val / 4 % 4) + q.val) % 4096; rw [h1]; omega

/-- The block of A at every point is all of A. -/
theorem ablk_apply (c : Dev nD) (t : Fin cfg0.N) (q : Fin 1024) (s : Fin 1024) :
    ablk m c t (ix2 q s) = aarr m c (ix2 q s) := by
  obtain ⟨h0, h1⟩ := index3 t
  show iblk m c 3 t (ix2 q s) = _
  unfold iblk
  rw [View.read_apply]
  show V m c main_arg3 _ = V m c main_arg3 _
  congr 1
  funext a
  apply Fin.ext
  match a with
  | ⟨0, _⟩ => show win0_3.index t 0 * 1024 + 1 * q.val = q.val; rw [h0]; omega
  | ⟨1, _⟩ => show win0_3.index t 1 * 1024 + 1 * s.val = s.val; rw [h1]; omega

end Cert.Mora.Blocks

end
-- ==== Proof.Pieces.lean ====
import proofs.«143086_j89266600280130_1_alg».proof.Proof.Gen.KernelIdeal.Frame
import Idealize.ShloMosaic.Lib.Pipeline.Value
import Idealize.ShloMosaic.Lib.Tactic

/-!
  What one run of the kernel body leaves behind, in each of its three control cases, as values.

  The body keeps two running blocks between grid points: `main` (the products accumulated so far) and `fold` (the
  blocks of x accumulated so far). Write x, w, b, a for the blocks of x, W, the bias and A the body is handed.

  * first point of a reduction (the k = 0 case): both running blocks are reset to zero and then updated, so they end at
    `0 + x·wᵀ` and `0 + x`: the update's load reads back the zero block the reset has just stored;
  * a middle point: `main + x·wᵀ` and `fold + x` over what the point before left;
  * last point (k = 3): the same two updates, and the output block is `(main' + b) + fold'·aᵀ` of the UPDATED running
    blocks `main'`, `fold'`: the loads of the two running blocks come after the stores that updated them.

  Each is read off the body's stores: every store covers its whole buffer, so what a buffer ends holding is the payload
  of the last store into it, and a load through the whole buffer reads its contents.
-/

set_option maxRecDepth 16384

noncomputable section

open Idealize.ShloMosaic Idealize.ShloMosaic.TcCoe Idealize.SL.Sem Idealize.ShloMosaic.Tactic

namespace Cert.Mora.Pieces

open Cert.KernelIdeal Cert.KernelIdeal.Gen

variable {F : FTy → Type} [FloatOps F]

/-- The offsets of a whole-buffer access are zero on both axes. -/
theorem hz : (![0, 0] : Fin 2 → Nat) = fun _ => 0 := funext fun a => by fin_cases a <;> rfl

/-- First point of a reduction: the running products end at the zero block plus this point's product. -/
theorem sout0_A_0_eq (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x1024 .f32) (x1 : Vec F S1024x1024 .f32) (x2 : Vec F S1x1024 .f32) (x3 : Vec F S1024x1024 .f32) :
    sout0_A_0 c i arg3 harg3 arg4 harg4 arg5 harg5 arg6 harg6 arg7 harg7 arg8 harg8 arg9 harg9 hc0 hc1 x0 x1 x2 x3 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x1024) hz]
  simp only [View.readAt_eq_ld, harg3.read_unread, harg4.read_unread, harg5.read_unread, harg6.read_unread, harg8.read_unread, harg9.read_unread, View.readCov_unit_zero (S := S512x1024) _ hz, View.ld_unit_zero (S := S512x1024) hz, View.ld_unit_zero (S := S1024x1024) hz, View.ld_unit_zero (S := S1x1024) hz]

/-- First point of a reduction: the running fold ends at the zero block plus this point's block of x. -/
theorem sout0_A_1_eq (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x1024 .f32) (x1 : Vec F S1024x1024 .f32) (x2 : Vec F S1x1024 .f32) (x3 : Vec F S1024x1024 .f32) :
    sout0_A_1 c i arg3 harg3 arg4 harg4 arg5 harg5 arg6 harg6 arg7 harg7 arg8 harg8 arg9 harg9 hc0 hc1 x0 x1 x2 x3 = k0_pay5 x0 (k0_pay2 (F := F)) := by
  unfold sout0_A_1
  rw [View.read_writes_eq_canon _ _ _ (scover0_A_1 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x1024) hz]
  simp only [View.readAt_eq_ld, harg3.read_unread, harg4.read_unread, harg5.read_unread, harg6.read_unread, harg8.read_unread, harg9.read_unread, View.readCov_unit_zero (S := S512x1024) _ hz, View.ld_unit_zero (S := S512x1024) hz, View.ld_unit_zero (S := S1024x1024) hz, View.ld_unit_zero (S := S1x1024) hz]

/-- A middle point: the running products plus this point's product. -/
theorem sout0_B_0_eq (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : ¬cond0_1 i)
    (x0 : Vec F S512x1024 .f32) (x1 : Vec F S1024x1024 .f32) (x2 : Vec F S1x1024 .f32) (x3 : Vec F S1024x1024 .f32) (xs0 : Vec F S512x1024 .f32) (xs1 : Vec F S512x1024 .f32) :
    sout0_B_0 c i arg3 harg3 arg4 harg4 arg5 harg5 arg6 harg6 arg7 harg7 arg8 harg8 arg9 harg9 hc0 hc1 x0 x1 x2 x3 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg3.read_unread, harg4.read_unread, harg5.read_unread, harg6.read_unread, harg8.read_unread, harg9.read_unread, View.readCov_unit_zero (S := S512x1024) _ hz, View.ld_unit_zero (S := S512x1024) hz, View.ld_unit_zero (S := S1024x1024) hz, View.ld_unit_zero (S := S1x1024) hz]

/-- A middle point: the running fold plus this point's block of x. -/
theorem sout0_B_1_eq (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : ¬cond0_1 i)
    (x0 : Vec F S512x1024 .f32) (x1 : Vec F S1024x1024 .f32) (x2 : Vec F S1x1024 .f32) (x3 : Vec F S1024x1024 .f32) (xs0 : Vec F S512x1024 .f32) (xs1 : Vec F S512x1024 .f32) :
    sout0_B_1 c i arg3 harg3 arg4 harg4 arg5 harg5 arg6 harg6 arg7 harg7 arg8 harg8 arg9 harg9 hc0 hc1 x0 x1 x2 x3 xs0 xs1 = k0_pay5 x0 xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg3.read_unread, harg4.read_unread, harg5.read_unread, harg6.read_unread, harg8.read_unread, harg9.read_unread, View.readCov_unit_zero (S := S512x1024) _ hz, View.ld_unit_zero (S := S512x1024) hz, View.ld_unit_zero (S := S1024x1024) hz, View.ld_unit_zero (S := S1x1024) hz]

/-- Last point of a reduction: the running products plus this point's product. -/
theorem sout0_C_0_eq (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x1024 .f32) (x1 : Vec F S1024x1024 .f32) (x2 : Vec F S1x1024 .f32) (x3 : Vec F S1024x1024 .f32) (xs0 : Vec F S512x1024 .f32) (xs1 : Vec F S512x1024 .f32) :
    sout0_C_0 c i arg3 harg3 arg4 harg4 arg5 harg5 arg6 harg6 arg7 harg7 arg8 harg8 arg9 harg9 hc0 hc1 x0 x1 x2 x3 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread, harg8.read_unread, harg9.read_unread, View.readCov_unit_zero (S := S512x1024) _ hz, View.ld_unit_zero (S := S512x1024) hz, View.ld_unit_zero (S := S1024x1024) hz, View.ld_unit_zero (S := S1x1024) hz]

/-- Last point of a reduction: the running fold plus this point's block of x. -/
theorem sout0_C_1_eq (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x1024 .f32) (x1 : Vec F S1024x1024 .f32) (x2 : Vec F S1x1024 .f32) (x3 : Vec F S1024x1024 .f32) (xs0 : Vec F S512x1024 .f32) (xs1 : Vec F S512x1024 .f32) :
    sout0_C_1 c i arg3 harg3 arg4 harg4 arg5 harg5 arg6 harg6 arg7 harg7 arg8 harg8 arg9 harg9 hc0 hc1 x0 x1 x2 x3 xs0 xs1 = k0_pay5 x0 xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread, harg8.read_unread, harg9.read_unread, View.readCov_unit_zero (S := S512x1024) _ hz, View.ld_unit_zero (S := S512x1024) hz, View.ld_unit_zero (S := S1024x1024) hz, View.ld_unit_zero (S := S1x1024) hz]

/-- Last point of a reduction: the output block, from the UPDATED running blocks, the bias block and A. -/
theorem out0_C_4_eq (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x1024 .f32) (x1 : Vec F S1024x1024 .f32) (x2 : Vec F S1x1024 .f32) (x3 : Vec F S1024x1024 .f32) (xs0 : Vec F S512x1024 .f32) (xs1 : Vec F S512x1024 .f32) :
    out0_C_4 c i arg3 harg3 arg4 harg4 arg5 harg5 arg6 harg6 arg7 harg7 arg8 harg8 arg9 harg9 hc0 hc1 x0 x1 x2 x3 xs0 xs1 = k0_pay6 (k0_pay5 x0 xs1) x3 (k0_pay4 x0 x1 xs0) x2 := by
  unfold out0_C_4
  rw [View.read_writes_eq_canon _ _ _ (cover0_C_4 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread, harg8.read_unread, harg9.read_unread, View.readCov_unit_zero (S := S512x1024) _ hz, View.ld_unit_zero (S := S512x1024) hz, View.ld_unit_zero (S := S1024x1024) hz, View.ld_unit_zero (S := S1x1024) hz]

end Cert.Mora.Pieces

end
-- ==== Proof.Payloads.lean ====
/-
  The arithmetic of the kernel body read at one element, at the ideal values (every float an extended real, every
  operation exact, a change of float format the identity, the zero word the number 0).

  The body holds two running blocks of shape [512, 1024]: an accumulator for the main product and a fold of the input's
  column blocks. Per step it adds to the accumulator the product of the current input block with the current weight
  block, contracted over the SECOND axis of both (entry (p, q) is the sum over t of x[p, t] * w[q, t]), and adds the
  input block to the fold; at the first step both running blocks are set to zero; at the last step the output block is
  accumulator + bias row + (fold times the small matrix, contracted the same way).

  Five statements, one per stored value, each at the index (p, q):
    pay1_apply, pay2_apply   the two zero blocks;
    pay4_apply               accumulator + ∑ t, x[p, t] * w[q, t];
    pay5_apply               fold + x;
    pay6_apply               (accumulator + bias[0, q]) + ∑ t, fold[p, t] * a[q, t].
  The one non-pointwise step, the product, is read at an index once (matmul_zero_apply): the contraction index of
  the dimension numbers has a single axis of extent 1024, so the sum over it is re-indexed to a sum over Fin 1024, and the
  operand indices at (p, q) and t are (p, t) and (q, t), axis by axis.
-/
import proofs.«143086_j89266600280130_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Mora.Pay

open Cert.KernelIdeal Cert.KernelIdeal.Gen Idealize.ShloMosaic Idealize.ShloMosaic.ValueIdx

/-! ## The product's operand indices, axis by axis

The dimension numbers contract axis 1 of both operands and keep axis 0 of both: the left operand is read at
(row of the output, contraction coordinate), the right operand at (column of the output, contraction coordinate). -/

/-- Left operand, axis 0 (kept): the output's row. -/
theorem lhs_axis0 (i : S512x1024.Idx) (k : dot_S512x1024_S1024x1024_S512x1024_1_1_0_0_n_n.contr.Idx) :
    (dot_S512x1024_S1024x1024_S512x1024_1_1_0_0_n_n.lhsIdx i k 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl

/-- Left operand, axis 1 (contracted): the contraction coordinate. -/
theorem lhs_axis1 (i : S512x1024.Idx) (k : dot_S512x1024_S1024x1024_S512x1024_1_1_0_0_n_n.contr.Idx) :
    (dot_S512x1024_S1024x1024_S512x1024_1_1_0_0_n_n.lhsIdx i k 1).val = (k ⟨0, by decide⟩).val :=
  dot_S512x1024_S1024x1024_S512x1024_1_1_0_0_n_n.lhsIdx_val_of_single rfl i k

/-- Right operand, axis 0 (kept): the output's column. -/
theorem rhs_axis0 (i : S512x1024.Idx) (k : dot_S512x1024_S1024x1024_S512x1024_1_1_0_0_n_n.contr.Idx) :
    (dot_S512x1024_S1024x1024_S512x1024_1_1_0_0_n_n.rhsIdx i k 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl

/-- Right operand, axis 1 (contracted): the contraction coordinate. -/
theorem rhs_axis1 (i : S512x1024.Idx) (k : dot_S512x1024_S1024x1024_S512x1024_1_1_0_0_n_n.contr.Idx) :
    (dot_S512x1024_S1024x1024_S512x1024_1_1_0_0_n_n.rhsIdx i k 1).val = (k ⟨0, by decide⟩).val :=
  dot_S512x1024_S1024x1024_S512x1024_1_1_0_0_n_n.rhsIdx_val_of_single rfl i k

/-! ## The product into a zero accumulator, at an index -/

/-- Entry (p, q) of the product of a [512, 1024] block with a [1024, 1024] block, both contracted over their second axis,
    accumulated into zero: ∑ t, a[p, t] * b[q, t]. -/
theorem matmul_zero_apply {φ₁ φ₂ : FTy} (a : FVec Ideal S512x1024 φ₁) (b : FVec Ideal S1024x1024 φ₂) (p : Fin 512) (q : Fin 1024) :
    matmul (F := Ideal) dot_S512x1024_S1024x1024_S512x1024_1_1_0_0_n_n none a b
        (constant (F := Ideal) S512x1024 .f32 0x00000000#32) (ix2 p q)
      = ∑ t : Fin 1024, a (ix2 p t) * b (ix2 q t) := by
  simp only [matmul]
  rw [Ideal.matmul_constant_zero_apply,
    ← Equiv.sum_comp (ValueIdx.contrEquiv1 dot_S512x1024_S1024x1024_S512x1024_1_1_0_0_n_n 1024 rfl rfl).symm]
  refine Finset.sum_congr rfl fun t _ => ?_
  have ht := ValueIdx.contrEquiv1_symm_val dot_S512x1024_S1024x1024_S512x1024_1_1_0_0_n_n 1024 rfl rfl t
  have el : dot_S512x1024_S1024x1024_S512x1024_1_1_0_0_n_n.lhsIdx (ix2 p q)
      ((ValueIdx.contrEquiv1 dot_S512x1024_S1024x1024_S512x1024_1_1_0_0_n_n 1024 rfl rfl).symm t) = ix2 p t :=
    funext fun ax => Fin.ext (by
      match ax with
      | ⟨0, _⟩ => exact lhs_axis0 _ _
      | ⟨1, _⟩ => exact (lhs_axis1 _ _).trans ht)
  have er : dot_S512x1024_S1024x1024_S512x1024_1_1_0_0_n_n.rhsIdx (ix2 p q)
      ((ValueIdx.contrEquiv1 dot_S512x1024_S1024x1024_S512x1024_1_1_0_0_n_n 1024 rfl rfl).symm t) = ix2 q t :=
    funext fun ax => Fin.ext (by
      match ax with
      | ⟨0, _⟩ => exact rhs_axis0 _ _
      | ⟨1, _⟩ => exact (rhs_axis1 _ _).trans ht)
  rw [el, er]

/-! ## The stored values, at an index -/

/-- The first step's accumulator block is zero. -/
theorem pay1_apply (p : Fin 512) (q : Fin 1024) : k0_pay1 (F := Ideal) (ix2 p q) = (0 : EReal) := by
  unfold k0_pay1
  rw [shapeCast_self]
  exact Ideal.ofBits_zero_f32

/-- The first step's fold block is zero. -/
theorem pay2_apply (p : Fin 512) (q : Fin 1024) : k0_pay2 (F := Ideal) (ix2 p q) = (0 : EReal) := by
  unfold k0_pay2
  rw [shapeCast_self]
  exact Ideal.ofBits_zero_f32

/-- The accumulator's update: the old accumulator plus the product of the input block with the weight block. -/
theorem pay4_apply (v3 : Vec Ideal S512x1024 .f32) (v5 : Vec Ideal S1024x1024 .f32) (v8 : Vec Ideal S512x1024 .f32)
    (p : Fin 512) (q : Fin 1024) :
    k0_pay4 (F := Ideal) v3 v5 v8 (ix2 p q) = v8 (ix2 p q) + ∑ t : Fin 1024, v3 (ix2 p t) * v5 (ix2 q t) := by
  unfold k0_pay4 k0_pay3
  rw [shapeCast_self, shapeCast_self]
  show v8 (ix2 p q) + _ = _
  rw [matmul_zero_apply]
  rfl

/-- The fold's update: the old fold plus the input block. -/
theorem pay5_apply (v3 v14 : Vec Ideal S512x1024 .f32) (p : Fin 512) (q : Fin 1024) :
    k0_pay5 (F := Ideal) v3 v14 (ix2 p q) = v14 (ix2 p q) + v3 (ix2 p q) := by
  unfold k0_pay5 k0_pay3
  rw [shapeCast_self, shapeCast_self]
  rfl

/-- The last step's output block: (accumulator + the bias row) + the product of the fold with the small matrix. -/
theorem pay6_apply (v22 : Vec Ideal S512x1024 .f32) (v24 : Vec Ideal S1024x1024 .f32) (v27 : Vec Ideal S512x1024 .f32)
    (v28 : Vec Ideal S1x1024 .f32) (p : Fin 512) (q : Fin 1024) :
    k0_pay6 (F := Ideal) v22 v24 v27 v28 (ix2 p q)
      = (v27 (ix2 p q) + v28 (ix2 (0 : Fin 1) q)) + ∑ t : Fin 1024, v22 (ix2 p t) * v24 (ix2 q t) := by
  unfold k0_pay6
  rw [shapeCast_self]
  show (v27 (ix2 p q) + broadcastTo S512x1024 v28 _ (ix2 p q)) + _ = _
  rw [broadcastTo_1b_ab_apply, matmul_zero_apply]
  rfl

end Cert.Mora.Pay

end
-- ==== Proof.Invariant.lean ====
import proofs.«143086_j89266600280130_1_alg».proof.Proof.Gen.KernelIdeal.Frame
import proofs.«143086_j89266600280130_1_alg».proof.Proof.Spec
import proofs.«143086_j89266600280130_1_alg».proof.Proof.Pieces
import proofs.«143086_j89266600280130_1_alg».proof.Proof.Payloads
import proofs.«143086_j89266600280130_1_alg».proof.Proof.Blocks

/-!
  What the kernel's two running blocks hold after every grid point, and what it writes out.

  Grid point n has row-block i = n / 16, column-block j = n / 4 mod 4 and reduction step k = n mod 4; the four steps of
  one reduction are consecutive points. Fix an entry (p, q) of the [512, 1024] blocks; it belongs to row
  r = 512·i + p of x and to row o = 1024·j + q of W. After point n

    * the running products hold  ((0 + T 0) + T 1) + … + T k   with  T k' = ∑ t < 1024, x[r, 1024·k' + t] · W[o, 1024·k' + t],
    * the running fold holds     ((0 + x[r, q]) + x[r, 1024 + q]) + … + x[r, 1024·k + q],

  by induction on n: at k = 0 both are reset to zero and updated once; at k > 0 they are updated over what point n - 1
  left, and point n - 1 belongs to the same reduction (same i and j, step k - 1). At k = 3 the output block's entry
  (p, q) is (products + bias[o]) + ∑ t, fold(p, t) · A[q, t] of the UPDATED running blocks: the kernel's formula for one
  output entry.
-/

noncomputable section

open Idealize.ShloMosaic Idealize.ShloMosaic.TcCoe Idealize.SL.Sem Idealize.ShloMosaic.ValueIdx

namespace Cert.Mora.Inv

open Cert.KernelIdeal Cert.KernelIdeal.Gen Cert.Mora Cert.Mora.Blocks

variable (m : (ℓ : Loc nD τ sig) → Buf (Elt Ideal) ℓ)

/-- The row of x (4096 entries) that row `p` of grid point `n`'s block of x lies in. -/
def xrow (c : Dev nD) (n : ℕ) (p : Fin 512) : Fin 4096 → EReal := fun c' => xarr m c (ix2 (rowOf n p) c')

/-- The row of W (4096 entries) that row `q` of grid point `n`'s block of W lies in. -/
def wrow (c : Dev nD) (n : ℕ) (q : Fin 1024) : Fin 4096 → EReal := fun c' => warr m c (ix2 (col (n / 4 % 4) q) c')

/-- One update of the running products at a point: the old entry plus that step's block of products. -/
theorem step_main (c : Dev nD) (t : Fin cfg0.N) (acc : Vec Ideal S512x1024 .f32) (p : Fin 512) (q : Fin 1024) :
    k0_pay4 (F := Ideal) (xblk m c t) (wblk m c t) acc (ix2 p q)
      = acc (ix2 p q) + mainTerm (xrow m c t.val p) (wrow m c t.val q) (t.val % 4) := by
  refine (Pay.pay4_apply (xblk m c t) (wblk m c t) acc p q).trans ?_
  unfold mainTerm xrow wrow
  simp only [xblk_apply, wblk_apply]

/-- One update of the running fold at a point: the old entry plus that step's entry of x. -/
theorem step_fold (c : Dev nD) (t : Fin cfg0.N) (acc : Vec Ideal S512x1024 .f32) (p : Fin 512) (q : Fin 1024) :
    k0_pay5 (F := Ideal) (xblk m c t) acc (ix2 p q)
      = acc (ix2 p q) + foldTerm (xrow m c t.val p) q (t.val % 4) := by
  refine (Pay.pay5_apply (xblk m c t) acc p q).trans ?_
  unfold foldTerm xrow
  rw [xblk_apply]

/-- Entry (p, q) of the running products after point `n`. -/
def mainAt (c : Dev nD) (n : ℕ) (p : Fin 512) (q : Fin 1024) : EReal :=
  accum (mainTerm (xrow m c n p) (wrow m c n q)) (n % 4 + 1)

/-- Entry (p, q) of the running fold after point `n`. -/
def foldAt (c : Dev nD) (n : ℕ) (p : Fin 512) (q : Fin 1024) : EReal :=
  accum (foldTerm (xrow m c n p) q) (n % 4 + 1)

/-- A point that is not the first step of its reduction lies in the same rows as the point before it. -/
theorem rowOf_pred (n : ℕ) (h0 : ¬n % 4 = 0) (p : Fin 512) : rowOf (n - 1) p = rowOf n p := by
  have e : (n - 1) / 16 = n / 16 := by omega
  exact Fin.ext (by
    show (512 * ((n - 1) / 16) + p.val) % 16384 = (512 * (n / 16) + p.val) % 16384
    rw [e])

theorem mainAt_first (c : Dev nD) (n : ℕ) (h0 : n % 4 = 0) (p : Fin 512) (q : Fin 1024) :
    mainAt m c n p q = 0 + mainTerm (xrow m c n p) (wrow m c n q) (n % 4) := by
  unfold mainAt
  rw [h0]
  rfl

theorem foldAt_first (c : Dev nD) (n : ℕ) (h0 : n % 4 = 0) (p : Fin 512) (q : Fin 1024) :
    foldAt m c n p q = 0 + foldTerm (xrow m c n p) q (n % 4) := by
  unfold foldAt
  rw [h0]
  rfl

theorem mainAt_next (c : Dev nD) (n : ℕ) (h0 : ¬n % 4 = 0) (p : Fin 512) (q : Fin 1024) :
    mainAt m c n p q = mainAt m c (n - 1) p q + mainTerm (xrow m c n p) (wrow m c n q) (n % 4) := by
  have e2 : (n - 1) / 4 % 4 = n / 4 % 4 := by omega
  have e3 : (n - 1) % 4 + 1 = n % 4 := by omega
  unfold mainAt xrow wrow
  rw [rowOf_pred n h0 p, e2, e3]
  rfl

theorem foldAt_next (c : Dev nD) (n : ℕ) (h0 : ¬n % 4 = 0) (p : Fin 512) (q : Fin 1024) :
    foldAt m c n p q = foldAt m c (n - 1) p q + foldTerm (xrow m c n p) q (n % 4) := by
  have e3 : (n - 1) % 4 + 1 = n % 4 := by omega
  unfold foldAt xrow
  rw [rowOf_pred n h0 p, e3]
  rfl

/-! ### The three cases' found pieces, at a grid point's own blocks -/

theorem ptA_main (c : Dev nD) (t : Fin cfg0.N) (hc0 : cond0_0 (grid0.coords t)) (hc1 : ¬cond0_1 (grid0.coords t)) :
    sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) hc0 hc1 (iblk m c 0 t) (iblk m c 1 t) (iblk m c 2 t) (iblk m c 3 t) = k0_pay4 (xblk m c t) (wblk m c t) (k0_pay1 (F := Ideal)) :=
  Pieces.sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) hc0 hc1 (iblk m c 0 t) (iblk m c 1 t) (iblk m c 2 t) (iblk m c 3 t)

theorem ptA_fold (c : Dev nD) (t : Fin cfg0.N) (hc0 : cond0_0 (grid0.coords t)) (hc1 : ¬cond0_1 (grid0.coords t)) :
    sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) hc0 hc1 (iblk m c 0 t) (iblk m c 1 t) (iblk m c 2 t) (iblk m c 3 t) = k0_pay5 (xblk m c t) (k0_pay2 (F := Ideal)) :=
  Pieces.sout0_A_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) hc0 hc1 (iblk m c 0 t) (iblk m c 1 t) (iblk m c 2 t) (iblk m c 3 t)

theorem ptB_main (c : Dev nD) (t : Fin cfg0.N) (hc0 : ¬cond0_0 (grid0.coords t)) (hc1 : ¬cond0_1 (grid0.coords t))
    (xs0 xs1 : Vec Ideal S512x1024 .f32) :
    sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) hc0 hc1 (iblk m c 0 t) (iblk m c 1 t) (iblk m c 2 t) (iblk m c 3 t) xs0 xs1 = k0_pay4 (xblk m c t) (wblk m c t) xs0 :=
  Pieces.sout0_B_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) hc0 hc1 (iblk m c 0 t) (iblk m c 1 t) (iblk m c 2 t) (iblk m c 3 t) xs0 xs1

theorem ptB_fold (c : Dev nD) (t : Fin cfg0.N) (hc0 : ¬cond0_0 (grid0.coords t)) (hc1 : ¬cond0_1 (grid0.coords t))
    (xs0 xs1 : Vec Ideal S512x1024 .f32) :
    sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) hc0 hc1 (iblk m c 0 t) (iblk m c 1 t) (iblk m c 2 t) (iblk m c 3 t) xs0 xs1 = k0_pay5 (xblk m c t) xs1 :=
  Pieces.sout0_B_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) hc0 hc1 (iblk m c 0 t) (iblk m c 1 t) (iblk m c 2 t) (iblk m c 3 t) xs0 xs1

theorem ptC_main (c : Dev nD) (t : Fin cfg0.N) (hc0 : ¬cond0_0 (grid0.coords t)) (hc1 : cond0_1 (grid0.coords t))
    (xs0 xs1 : Vec Ideal S512x1024 .f32) :
    sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) hc0 hc1 (iblk m c 0 t) (iblk m c 1 t) (iblk m c 2 t) (iblk m c 3 t) xs0 xs1 = k0_pay4 (xblk m c t) (wblk m c t) xs0 :=
  Pieces.sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) hc0 hc1 (iblk m c 0 t) (iblk m c 1 t) (iblk m c 2 t) (iblk m c 3 t) xs0 xs1

theorem ptC_fold (c : Dev nD) (t : Fin cfg0.N) (hc0 : ¬cond0_0 (grid0.coords t)) (hc1 : cond0_1 (grid0.coords t))
    (xs0 xs1 : Vec Ideal S512x1024 .f32) :
    sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) hc0 hc1 (iblk m c 0 t) (iblk m c 1 t) (iblk m c 2 t) (iblk m c 3 t) xs0 xs1 = k0_pay5 (xblk m c t) xs1 :=
  Pieces.sout0_C_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) hc0 hc1 (iblk m c 0 t) (iblk m c 1 t) (iblk m c 2 t) (iblk m c 3 t) xs0 xs1

theorem ptC_out (c : Dev nD) (t : Fin cfg0.N) (hc0 : ¬cond0_0 (grid0.coords t)) (hc1 : cond0_1 (grid0.coords t))
    (xs0 xs1 : Vec Ideal S512x1024 .f32) :
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) hc0 hc1 (iblk m c 0 t) (iblk m c 1 t) (iblk m c 2 t) (iblk m c 3 t) xs0 xs1
      = k0_pay6 (k0_pay5 (xblk m c t) xs1) (ablk m c t) (k0_pay4 (xblk m c t) (wblk m c t) xs0) (bblk m c t) :=
  Pieces.out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) hc0 hc1 (iblk m c 0 t) (iblk m c 1 t) (iblk m c 2 t) (iblk m c 3 t) xs0 xs1

/-! ### The running blocks after every point -/

/-- An update over what the point before left, when that is the state after the point before. -/
theorem upd (c : Dev nD) (n : ℕ) (hn : n + 1 < cfg0.N) (h0 : ¬(n + 1) % 4 = 0) (xs0 xs1 : Vec Ideal S512x1024 .f32)
    (p : Fin 512) (q : Fin 1024) (ih0 : xs0 (ix2 p q) = mainAt m c n p q) (ih1 : xs1 (ix2 p q) = foldAt m c n p q) :
    k0_pay4 (F := Ideal) (xblk m c ⟨n + 1, hn⟩) (wblk m c ⟨n + 1, hn⟩) xs0 (ix2 p q) = mainAt m c (n + 1) p q
    ∧ k0_pay5 (F := Ideal) (xblk m c ⟨n + 1, hn⟩) xs1 (ix2 p q) = foldAt m c (n + 1) p q := by
  constructor
  · rw [step_main m c ⟨n + 1, hn⟩ xs0 p q, mainAt_next m c (n + 1) h0 p q, ih0]
    rfl
  · rw [step_fold m c ⟨n + 1, hn⟩ xs1 p q, foldAt_next m c (n + 1) h0 p q, ih1]
    rfl

/-- After point `n` the two running blocks hold the products and the fold accumulated over the steps of `n`'s
    reduction up to `n`'s own. -/
theorem scratch_eq (c : Dev nD) : ∀ (n : ℕ) (hn : n < cfg0.N) (p : Fin 512) (q : Fin 1024),
    (outsAt0 m c n hn).2.1 (ix2 p q) = mainAt m c n p q ∧ (outsAt0 m c n hn).2.2 (ix2 p q) = foldAt m c n p q
  | 0, hn, p, q => by
    have h0 : (⟨0, hn⟩ : Fin cfg0.N).val % 4 = 0 := rfl
    have h1 : ¬(⟨0, hn⟩ : Fin cfg0.N).val % 4 = 3 := by show ¬0 % 4 = 3; decide
    rw [outsAt0_A m c ⟨0, hn⟩ h0 h1]
    dsimp only
    constructor
    · rw [ptA_main m c ⟨0, hn⟩, step_main m c ⟨0, hn⟩ _ p q, Pay.pay1_apply, mainAt_first m c 0 rfl p q]
    · rw [ptA_fold m c ⟨0, hn⟩, step_fold m c ⟨0, hn⟩ _ p q, Pay.pay2_apply, foldAt_first m c 0 rfl p q]
  | n + 1, hn, p, q => by
    obtain ⟨ih0, ih1⟩ := scratch_eq c n (Nat.lt_of_succ_lt hn) p q
    by_cases h0 : (n + 1) % 4 = 0
    · have h1 : ¬(n + 1) % 4 = 3 := by omega
      rw [outsAt0_A m c ⟨n + 1, hn⟩ h0 h1]
      dsimp only
      constructor
      · rw [ptA_main m c ⟨n + 1, hn⟩, step_main m c ⟨n + 1, hn⟩ _ p q, Pay.pay1_apply, mainAt_first m c (n + 1) h0 p q]
      · rw [ptA_fold m c ⟨n + 1, hn⟩, step_fold m c ⟨n + 1, hn⟩ _ p q, Pay.pay2_apply, foldAt_first m c (n + 1) h0 p q]
    · by_cases h1 : (n + 1) % 4 = 3
      · rw [outsAt0_C m c ⟨n + 1, hn⟩ h0 h1]
        dsimp only
        rw [ptC_main m c ⟨n + 1, hn⟩, ptC_fold m c ⟨n + 1, hn⟩]
        exact upd m c n hn h0 _ _ p q ih0 ih1
      · rw [outsAt0_B m c ⟨n + 1, hn⟩ h0 h1]
        dsimp only
        rw [ptB_main m c ⟨n + 1, hn⟩, ptB_fold m c ⟨n + 1, hn⟩]
        exact upd m c n hn h0 _ _ p q ih0 ih1

/-- The output entry from the UPDATED running blocks, over whatever the point before left, when that is the state after
    the point before: the kernel's formula for one output entry. -/
theorem out_val (c : Dev nD) (n : ℕ) (hn : n + 1 < cfg0.N) (h3 : (n + 1) % 4 = 3) (xs0 xs1 : Vec Ideal S512x1024 .f32)
    (p : Fin 512) (q : Fin 1024) (ih0 : ∀ q' : Fin 1024, xs0 (ix2 p q') = mainAt m c n p q')
    (ih1 : ∀ q' : Fin 1024, xs1 (ix2 p q') = foldAt m c n p q') :
    k0_pay6 (F := Ideal) (k0_pay5 (xblk m c ⟨n + 1, hn⟩) xs1) (ablk m c ⟨n + 1, hn⟩)
        (k0_pay4 (xblk m c ⟨n + 1, hn⟩) (wblk m c ⟨n + 1, hn⟩) xs0) (bblk m c ⟨n + 1, hn⟩) (ix2 p q)
      = kernelOut (xrow m c (n + 1) p) (wrow m c (n + 1) q) (barr m c (ix2 (0 : Fin 1) (col ((n + 1) / 4 % 4) q)))
          (fun s => aarr m c (ix2 q s)) := by
  have h0 : ¬(n + 1) % 4 = 0 := by omega
  have hf : ∀ s : Fin 1024, k0_pay5 (F := Ideal) (xblk m c ⟨n + 1, hn⟩) xs1 (ix2 p s) = foldAt m c (n + 1) p s :=
    fun s => (upd m c n hn h0 xs0 xs1 p s (ih0 s) (ih1 s)).2
  rw [Pay.pay6_apply, (upd m c n hn h0 xs0 xs1 p q (ih0 q) (ih1 q)).1, bblk_apply]
  simp only [hf, ablk_apply]
  unfold kernelOut mainAt foldAt
  rw [h3]

/-- At the last step of a reduction the output block's entry (p, q) is the kernel's formula for one output entry, of
    the row of x and the row of W the entry belongs to, the bias entry of its column and row `q` of A. -/
theorem out_eq (c : Dev nD) (t : Fin cfg0.N) (h3 : t.val % 4 = 3) (p : Fin 512) (q : Fin 1024) :
    (outsAt0 m c t.val t.isLt).1 (ix2 p q)
      = kernelOut (xrow m c t.val p) (wrow m c t.val q) (barr m c (ix2 (0 : Fin 1) (col (t.val / 4 % 4) q)))
          (fun s => aarr m c (ix2 q s)) := by
  obtain ⟨n, hn⟩ := t
  cases n with
  | zero => exact absurd h3 (by show ¬0 % 4 = 3; decide)
  | succ n =>
    have h3' : (n + 1) % 4 = 3 := h3
    have h0 : ¬(n + 1) % 4 = 0 := by omega
    have ih := fun p' q' => scratch_eq m c n (Nat.lt_of_succ_lt hn) p' q'
    rw [outsAt0_C m c ⟨n + 1, hn⟩ h0 h3']
    dsimp only
    rw [ptC_out m c ⟨n + 1, hn⟩]
    exact out_val m c n hn h3' _ _ p q (fun q' => (ih p q').1) (fun q' => (ih p q').2)

end Cert.Mora.Inv

end
-- ==== Proof.Final.lean ====
import proofs.«143086_j89266600280130_1_alg».proof.Proof.Gen.KernelIdeal.Frame
import proofs.«143086_j89266600280130_1_alg».proof.Proof.Spec
import proofs.«143086_j89266600280130_1_alg».proof.Proof.Result
import proofs.«143086_j89266600280130_1_alg».proof.Proof.Blocks
import proofs.«143086_j89266600280130_1_alg».proof.Proof.Invariant
import Idealize.ShloMosaic.Lib.Pipeline.Value
import Idealize.ShloMosaic.Lib.ValueIdx
import Idealize.ShloMosaic.Lib.StableHlo.Run

/-!
  The idealized kernel's result array.

  The output block of grid point n is written back only at the last step of its reduction (n mod 4 = 3), to rows
  512·(n / 16) … and columns 1024·(n / 4 mod 4) … of the [16384, 4096] array; these 128 blocks tile the array (the block that
  holds entry (r, o) is the one of point 16·(r / 512) + 4·(o / 1024) + 3), and what each writes is its block of ONE
  function of the arrays: entry (r, o) is the kernel's formula of row r of the flattened x, row o of W, the bias at o and
  row (o mod 1024) of A. The reshape after the kernel regroups the 16384 rows as 4 × 4096 and the reshapes before it
  regroup x and the bias, so entry (bb, s, o) of the result is that formula of row (bb, s) of x, and the kernel's formula
  is the reference's (Spec).
-/

noncomputable section

open Idealize.ShloMosaic Idealize.ShloMosaic.TcCoe Idealize.SL.Sem Idealize.ShloMosaic.ValueIdx
open Idealize.ShloMosaic.Pipeline (Dat)

namespace Cert.Mora.Final

open Cert.KernelIdeal Cert.KernelIdeal.Gen Cert.Mora Cert.Mora.Blocks

variable (m : (ℓ : Loc nD τ sig) → Buf (Elt Ideal) ℓ) (ρ : Dev nD → PrngReg)

/-- Entry (r, o) of the [16384, 4096] array the kernel writes, as the kernel accumulates it. -/
def entry2 (c : Dev nD) (r : Fin 16384) (o : Fin 4096) : EReal :=
  kernelOut (fun c' => xarr m c (ix2 r c')) (fun c' => warr m c (ix2 o c')) (barr m c (ix2 (0 : Fin 1) o))
    (fun s => aarr m c (ix2 (wrap o) s))

/-- The [16384, 4096] array the kernel writes. -/
def G2 (c : Dev nD) : Vec Ideal S16384x4096 .f32 := fun i => entry2 m c (i 0) (i 1)

/-- Column `q` of column-block `j` wraps back to `q`. -/
theorem wrap_col (j : ℕ) (hj : j < 4) (q : Fin 1024) : wrap (col j q) = q :=
  Fin.ext (by
    show (1024 * j + q.val) % 4096 % 1024 = q.val
    have := q.isLt
    omega)

/-- What the last step of a reduction leaves in the output block, entry by entry: the array's entry at the block's place. -/
theorem out_entry (c : Dev nD) (t : Fin cfg0.N) (h3 : t.val % 4 = 3) (y : S512x1024.Idx) :
    (outsAt0 m c t.val t.isLt).1 y = entry2 m c (rowOf t.val (y 0)) (col (t.val / 4 % 4) (y 1)) := by
  refine (congrArg (outsAt0 m c t.val t.isLt).1 (eq_ix2 y)).trans ((Inv.out_eq m c t h3 (y 0) (y 1)).trans ?_)
  unfold entry2 Inv.xrow Inv.wrow
  rw [wrap_col (t.val / 4 % 4) (by omega) (y 1)]

/-- What a point that writes back writes is its block of the array `G2`. -/
theorem flushed_eq (c : Dev nD) (t : Fin cfg0.N) (hf : (cfg0.win 4).flush t = true) :
    (dats m 0 c).flushed 4 t = ((cfg0.win 4).blk t).view.read (Elt Ideal) (G2 m c) := by
  have h3 : t.val % 4 = 3 := (flush0_4 t).mp hf
  obtain ⟨i0, i1⟩ := index4 t
  have hN : t.val < 512 := lt_of_lt_of_eq t.isLt N_0
  show (cfg0.win 4).cut (grid0.coords t) ((dats m 0 c).after 4 t) = _
  rw [after0_4]
  funext y
  rw [View.read_apply]
  have hy0 : (y 0).val < 512 := (y 0).isLt
  have hy1 : (y 1).val < 1024 := (y 1).isLt
  have e0 : (((cfg0.win 4).blk t).view.emb y) 0 = rowOf t.val (y 0) := Fin.ext (by
    show win0_4.index t 0 * 512 + 1 * (y 0).val = (512 * (t.val / 16) + (y 0).val) % 16384
    rw [i0]; omega)
  have e1 : (((cfg0.win 4).blk t).view.emb y) 1 = col (t.val / 4 % 4) (y 1) := Fin.ext (by
    show win0_4.index t 1 * 1024 + 1 * (y 1).val = (1024 * (t.val / 4 % 4) + (y 1).val) % 4096
    rw [i1]; omega)
  unfold G2
  rw [e0, e1]
  exact out_entry m c t h3 y

/-- An entry of the array is in a point's block iff each coordinate is in the block's range on its axis. -/
theorem mem_blk (t : Fin cfg0.N) (i : S16384x4096.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v2).slice (win0_4.rect t)).set ↔ _
  rw [View.set_slice_whole, Rect.mem_set_unit]
  exact Iff.rfl

/-- Every entry of the array lies in the block of a point that writes back. -/
theorem cover (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  have hlt : (i 0).val / 512 * 16 + (i 1).val / 1024 * 4 + 3 < cfg0.N := by
    rw [show cfg0.N = 512 from N_0]; omega
  refine ⟨⟨(i 0).val / 512 * 16 + (i 1).val / 1024 * 4 + 3, hlt⟩, (flush0_4 _).mpr (by
    show ((i 0).val / 512 * 16 + (i 1).val / 1024 * 4 + 3) % 4 = 3; omega), ?_⟩
  obtain ⟨j0, j1⟩ := index4 ⟨(i 0).val / 512 * 16 + (i 1).val / 1024 * 4 + 3, hlt⟩
  rw [mem_blk]
  intro a
  match a with
  | ⟨0, _⟩ =>
    show win0_4.index _ 0 * 512 ≤ (i 0).val ∧ (i 0).val < win0_4.index _ 0 * 512 + 512
    rw [j0]
    show ((i 0).val / 512 * 16 + (i 1).val / 1024 * 4 + 3) / 16 * 512 ≤ (i 0).val
      ∧ (i 0).val < ((i 0).val / 512 * 16 + (i 1).val / 1024 * 4 + 3) / 16 * 512 + 512
    omega
  | ⟨1, _⟩ =>
    show win0_4.index _ 1 * 1024 ≤ (i 1).val ∧ (i 1).val < win0_4.index _ 1 * 1024 + 1024
    rw [j1]
    show ((i 0).val / 512 * 16 + (i 1).val / 1024 * 4 + 3) / 4 % 4 * 1024 ≤ (i 1).val
      ∧ (i 1).val < ((i 0).val / 512 * 16 + (i 1).val / 1024 * 4 + 3) / 4 % 4 * 1024 + 1024
    omega

/-- So the kernel's array ends holding `G2`. -/
theorem final (c : Dev nD) : (dats m 0 c).arrAt 4 cfg0.N = G2 m c :=
  (dats m 0 c).arrAt_eq_of_cover 4 (G2 m c) (flushed_eq m c) (cover)

end Cert.Mora.Final

end
-- ==== Proof.KernelRun.lean ====
import proofs.«143086_j89266600280130_1_alg».proof.Proof.Gen.KernelIdeal.Frame
import proofs.«143086_j89266600280130_1_alg».proof.Proof.Spec
import proofs.«143086_j89266600280130_1_alg».proof.Proof.Result
import proofs.«143086_j89266600280130_1_alg».proof.Proof.Blocks
import proofs.«143086_j89266600280130_1_alg».proof.Proof.Final
import Idealize.ShloMosaic.Lib.Pipeline.Value
import Idealize.ShloMosaic.Lib.ValueIdx
import Idealize.ShloMosaic.Lib.StableHlo.Run

/-!
  The idealized kernel's run, read: its result array is the result function of its four argument arrays.

  Around the kernel the program only regroups indices. Before it, x : [4, 4096, 4096] is read as [16384, 4096] (row
  4096·bb + s is row (bb, s)) and the bias as one row of 4096. After it, the [16384, 4096] array is read as [4, 4096, 4096]
  the same way. W and A reach the kernel as they are. So entry (bb, s, o) of the result is the kernel's formula for one
  output entry of row (bb, s) of x, row o of W, the bias at o and row (o mod 1024) of A, and that is the reference's formula.
-/

noncomputable section

open Idealize.ShloMosaic Idealize.ShloMosaic.TcCoe Idealize.SL.Sem Idealize.ShloMosaic.ValueIdx
open Idealize.ShloMosaic.Pipeline (Dat)

namespace Cert.Mora.KRun

open Cert.KernelIdeal Cert.KernelIdeal.Gen Cert.Mora Cert.Mora.Blocks Cert.Mora.Final

variable (m : (ℓ : Loc nD τ sig) → Buf (Elt Ideal) ℓ) (ρ : Dev nD → PrngReg)

/-- Row `4096·bb + s` of the flattened x. -/
def flat (bb : Fin 4) (s : Fin 4096) : Fin 16384 := ⟨4096 * bb.val + s.val, by have := bb.isLt; have := s.isLt; omega⟩

/-- The flattened x the kernel reads is the reshape of x. -/
theorem xarr_eq (c : Dev nD) :
    xarr m c = shapeCast S16384x4096 (m ((c : Thread nD τ).loc main_arg0)) shapeCasts_S4x4096x4096_S16384x4096 := by
  show StableHlo.after hostOps0 (fun b => m (c, b)) (Proc.devRef .tc main_v0) = _
  after_results
  rfl

/-- The bias row the kernel reads is the reshape of the bias. -/
theorem barr_eq (c : Dev nD) :
    barr m c = shapeCast S1x4096 (m ((c : Thread nD τ).loc main_arg2)) shapeCasts_S4096_S1x4096 := by
  show StableHlo.after hostOps0 (fun b => m (c, b)) (Proc.devRef .tc main_v1) = _
  after_results
  rfl

theorem xarr_apply (c : Dev nD) (bb : Fin 4) (s : Fin 4096) (c' : Fin 4096) :
    xarr m c (ix2 (flat bb s) c') = m ((c : Thread nD τ).loc main_arg0) (ix3 bb s c') := by
  rw [xarr_eq]
  exact shapeCast_apply _ shapeCasts_S4x4096x4096_S16384x4096 (ix2 (flat bb s) c') (ix3 bb s c') (by
    rewrite [Shape.rowMajor_val_three, Shape.rowMajor_val_two]
    show (bb.val * 4096 + s.val) * 4096 + c'.val = (4096 * bb.val + s.val) * 4096 + c'.val
    omega)

theorem barr_apply (c : Dev nD) (o : Fin 4096) :
    barr m c (ix2 (0 : Fin 1) o) = m ((c : Thread nD τ).loc main_arg2) (ix1 o) := by
  rw [barr_eq]
  exact shapeCast_apply _ shapeCasts_S4096_S1x4096 (ix2 (0 : Fin 1) o) (ix1 o) (by
    rewrite [Shape.rowMajor_val_one, Shape.rowMajor_val_two]
    show o.val = 0 * 4096 + o.val
    omega)

theorem warr_eq (c : Dev nD) : warr m c = m ((c : Thread nD τ).loc main_arg1) := V_main_arg1 m c

theorem aarr_eq (c : Dev nD) : aarr m c = m ((c : Thread nD τ).loc main_arg3) := V_main_arg3 m c

/-- The program's result after the reshape that follows the kernel: the reshape of the kernel's array. -/
theorem tail_eq (c : Dev nD) :
    Pipeline.afterTail₀ cfgs (dats m) 0 (V0 m) [hostOps1] c main_v3
      = shapeCast S4x4096x4096 (G2 m c) shapeCasts_S16384x4096_S4x4096x4096 := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v2) = G2 m c :=
    (Pipeline.withArrays_arr spec0 launch0.win.arr_inj c _ _ 4).trans (final m c)
  rw [hw]
  rfl

/-- Entry (bb, s, o) of the program's result is the result function of the four argument arrays there. -/
theorem result_apply (c : Dev nD) (bb : Fin 4) (s : Fin 4096) (o : Fin 4096) :
    Pipeline.afterTail₀ cfgs (dats m) 0 (V0 m) [hostOps1] c main_v3 (ix3 bb s o)
      = entry (m ((c : Thread nD τ).loc main_arg0)) (m ((c : Thread nD τ).loc main_arg1))
          (m ((c : Thread nD τ).loc main_arg2)) (m ((c : Thread nD τ).loc main_arg3)) bb s o := by
  rw [tail_eq]
  refine (shapeCast_apply (G2 m c) shapeCasts_S16384x4096_S4x4096x4096 (ix3 bb s o) (ix2 (flat bb s) o) (by
    rewrite [Shape.rowMajor_val_two, Shape.rowMajor_val_three]
    show (4096 * bb.val + s.val) * 4096 + o.val = (bb.val * 4096 + s.val) * 4096 + o.val
    omega)).trans ?_
  show entry2 m c (flat bb s) o = _
  unfold entry2 entry
  rw [← kernelOut_eq_refOut, barr_apply, warr_eq, aarr_eq]
  exact congrArg (fun f => kernelOut f _ _ _) (funext fun c' => xarr_apply m c bb s c')

/-- The program's result array is the result function of the four argument arrays. -/
theorem result_eq (c : Dev nD) :
    Pipeline.afterTail₀ cfgs (dats m) 0 (V0 m) [hostOps1] c main_v3
      = result (m ((c : Thread nD τ).loc main_arg0)) (m ((c : Thread nD τ).loc main_arg1))
          (m ((c : Thread nD τ).loc main_arg2)) (m ((c : Thread nD τ).loc main_arg3)) :=
  funext fun i => (congrArg (Pipeline.afterTail₀ cfgs (dats m) 0 (V0 m) [hostOps1] c main_v3) (eq_ix3 i)).trans
    (result_apply m c (i 0) (i 1) (i 2))

/-- The idealized kernel runs, ends with its result at the result function of its argument arrays, and leaves the
    arguments as they were. -/
theorem run : θ_run defs (onTc (τ := τ) (main (F := Ideal))) ⟨m, fun _ => 0, ρ⟩ fun r => ∀ c : Dev nD,
      r.2.mem ((c.tc : Thread nD τ).loc main_v3)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.Mora.KRun

end
-- ==== Proof.RefValue.lean ====
import proofs.«143086_j89266600280130_1_alg».proof.Proof.Gen.ReferenceIdeal.Read
import proofs.«143086_j89266600280130_1_alg».proof.Proof.Spec
import Idealize.ShloMosaic.Lib.ValueIdx
import Idealize.ShloMosaic.Lib.ValueIdxRank6
import Idealize.ShloMosaic.Lib.Pipeline.Value
import Idealize.ShloMosaic.PureOps.Ideal.Laws

/-!
  The reference's result read at one index.

  The reference computes  x·Wᵀ + b + tile(in_x·Aᵀ),  where in_x is the sum of the four 1024-wide column blocks of x and
  tile repeats a 1024-wide row four times along the columns. Read at entry (bb, s, o), with every operation exact over
  the extended reals:

  * the first product is  ∑ c < 4096, x[bb, s, c] · W[o, c];
  * the bias, broadcast over the two leading axes, is  b[o];
  * x reshaped to [4, 4096, 4, 1024] reads x[bb, s, 1024·g + t] at (bb, s, g, t): both have row-major position
    ((bb·4096 + s)·4 + g)·1024 + t, so the sum over g (started from the zero word, which is 0) is
    0 + ∑ g < 4, x[bb, s, 1024·g + t];
  * the second product at (bb, s, w) is  ∑ t < 1024, in_x[bb, s, t] · A[w, t];
  * the tile is a reshape to [1, 4, 1, 4096, 1, 1024], a broadcast of the fifth axis to 4 and a reshape back to
    [4, 4096, 4096]: entry (bb, s, o) of the result sits at (0, bb, 0, s, o / 1024, o mod 1024) of the broadcast, which reads
    (0, bb, 0, s, 0, o mod 1024) of its operand, which is entry (bb, s, o mod 1024) of the second product.

  Put together this is the function `Cert.Mora.refOut` of the row x[bb, s, ·], the row W[o, ·], the entry b[o] and the row
  A[o mod 1024, ·].
-/

open scoped BigOperators

noncomputable section

namespace Cert.Mora.Ref

open Cert.ReferenceIdeal Cert.ReferenceIdeal.Gen Cert.ReferenceIdeal.Read Idealize.ShloMosaic Idealize.ShloMosaic.ValueIdx

/-! ## The first product and the bias -/

/-- The left operand of the first product at (bb, s, o), term c: x at (bb, s, c). -/
theorem lidx_first (bb : Fin 4) (s o c : Fin 4096) : lidx_main_v0 (ix3 bb s o) c = ix3 bb s c :=
  funext fun a => Fin.ext (by match a with | ⟨0, _⟩ => rfl | ⟨1, _⟩ => rfl | ⟨2, _⟩ => rfl)

/-- The right operand of the first product at (bb, s, o), term c: W at (o, c). -/
theorem ridx_first (bb : Fin 4) (s o c : Fin 4096) : ridx_main_v0 (ix3 bb s o) c = ix2 o c :=
  funext fun a => Fin.ext (by match a with | ⟨0, _⟩ => rfl | ⟨1, _⟩ => rfl)

/-- The bias broadcast to [1, 1, 4096] and then to [4, 4096, 4096] reads b at the last coordinate. -/
theorem idx_bias (bb : Fin 4) (s o : Fin 4096) : idx_main_v1 (idx_main_v2 (ix3 bb s o)) = ix1 o :=
  funext fun a => Fin.ext (by match a with | ⟨0, _⟩ => rfl)

/-- x·Wᵀ + b at (bb, s, o). -/
theorem linear_apply (x : (⟨S4x4096x4096, .f32⟩ : BufTy).Contents (Elt Ideal)) (W : (⟨S4096x4096, .f32⟩ : BufTy).Contents (Elt Ideal))
    (b : (⟨S4096, .f32⟩ : BufTy).Contents (Elt Ideal)) (bb : Fin 4) (s o : Fin 4096) :
    val_main_v3 (F := Ideal) x W b (ix3 bb s o) = (∑ c : Fin 4096, x (ix3 bb s c) * W (ix2 o c)) + b (ix1 o) := by
  rw [val_main_v3_apply, val_main_v0_apply, val_main_v2_apply, val_main_v1_apply, idx_bias, Ideal.addf_def]
  simp only [lidx_first, ridx_first]

/-! ## The four column blocks of x summed -/

/-- Entry (bb, s, g, t) of x reshaped to [4, 4096, 4, 1024] is x at (bb, s, 1024·g + t). -/
theorem idx_blocks (bb : Fin 4) (s : Fin 4096) (g : Fin 4) (t : Fin 1024) :
    idx_main_v4 (ix4 bb s g t) = ix3 bb s (col g.val t) := by
  have hb := bb.isLt
  have hs := s.isLt
  have hg := g.isLt
  have ht := t.isLt
  have hc := col_val g.val g.isLt t
  refine funext fun a => Fin.ext ?_
  match a with
  | ⟨0, _⟩ =>
    show (((bb.val * 4096 + s.val) * 4 + g.val) * 1024 + t.val) / 16777216 = bb.val
    omega
  | ⟨1, _⟩ =>
    show (((bb.val * 4096 + s.val) * 4 + g.val) * 1024 + t.val) / 4096 % 4096 = s.val
    omega
  | ⟨2, _⟩ =>
    show (((bb.val * 4096 + s.val) * 4 + g.val) * 1024 + t.val) % 4096 = (col g.val t).val
    omega

/-- The sum over the third axis of [4, 4096, 4, 1024] at (bb, s, t) reads its operand at (bb, s, g, t). -/
theorem idx_fold (bb : Fin 4) (s : Fin 4096) (t : Fin 1024) (g : Fin 4) : idx_main_v5 (ix3 bb s t) g = ix4 bb s g t :=
  funext fun a => Fin.ext (by match a with | ⟨0, _⟩ => rfl | ⟨1, _⟩ => rfl | ⟨2, _⟩ => rfl | ⟨3, _⟩ => rfl)

/-- in_x at (bb, s, t): zero plus the four entries x[bb, s, 1024·g + t]. -/
theorem fold_apply (x : (⟨S4x4096x4096, .f32⟩ : BufTy).Contents (Elt Ideal)) (bb : Fin 4) (s : Fin 4096) (t : Fin 1024) :
    val_main_v5 (F := Ideal) x (ix3 bb s t) = 0 + ∑ g : Fin 4, x (ix3 bb s (col g.val t)) := by
  rw [val_main_v5_apply, val_main_cst_apply, Ideal.ofBits_def, Ideal.ofBits_zero_f32]
  simp only [val_main_v4_apply, idx_fold, idx_blocks]

/-! ## The second product -/

/-- The left operand of the second product at (bb, s, w), term t: in_x at (bb, s, t). -/
theorem lidx_second (bb : Fin 4) (s : Fin 4096) (w t : Fin 1024) : lidx_main_v6 (ix3 bb s w) t = ix3 bb s t :=
  funext fun a => Fin.ext (by match a with | ⟨0, _⟩ => rfl | ⟨1, _⟩ => rfl | ⟨2, _⟩ => rfl)

/-- The right operand of the second product at (bb, s, w), term t: A at (w, t). -/
theorem ridx_second (bb : Fin 4) (s : Fin 4096) (w t : Fin 1024) : ridx_main_v6 (ix3 bb s w) t = ix2 w t :=
  funext fun a => Fin.ext (by match a with | ⟨0, _⟩ => rfl | ⟨1, _⟩ => rfl)

/-- in_x·Aᵀ at (bb, s, w). -/
theorem adapter_apply (x : (⟨S4x4096x4096, .f32⟩ : BufTy).Contents (Elt Ideal)) (A : (⟨S1024x1024, .f32⟩ : BufTy).Contents (Elt Ideal))
    (bb : Fin 4) (s : Fin 4096) (w : Fin 1024) :
    val_main_v6 (F := Ideal) x A (ix3 bb s w)
      = ∑ t : Fin 1024, (0 + ∑ g : Fin 4, x (ix3 bb s (col g.val t))) * A (ix2 w t) := by
  rw [val_main_v6_apply]
  simp only [lidx_second, ridx_second, fold_apply]

/-! ## The tile: reshape, broadcast over a new axis of four, reshape back -/

/-- Entry (0, bb, 0, s, 0, w) of the second product reshaped to [1, 4, 1, 4096, 1, 1024] is its entry (bb, s, w): both sit at
    row-major position (bb·4096 + s)·1024 + w. -/
theorem unitAxes_apply (x : (⟨S4x4096x4096, .f32⟩ : BufTy).Contents (Elt Ideal)) (A : (⟨S1024x1024, .f32⟩ : BufTy).Contents (Elt Ideal))
    (bb : Fin 4) (s : Fin 4096) (w : Fin 1024) :
    val_main_v7 (F := Ideal) x A (ix6 (0 : Fin 1) bb (0 : Fin 1) s (0 : Fin 1) w) = val_main_v6 (F := Ideal) x A (ix3 bb s w) := by
  unfold val_main_v7
  exact shapeCast_apply _ shapeCasts_S4x4096x1024_S1x4x1x4096x1x1024 _ (ix3 bb s w)
    (by rewrite [Shape.rowMajor_val_three, Shape.rowMajor_val_six]
        show (bb.val * 4096 + s.val) * 1024 + w.val = ((((0 * 4 + bb.val) * 1 + 0) * 4096 + s.val) * 1 + 0) * 1024 + w.val
        omega)

/-- The broadcast of the fifth axis from 1 to 4 reads its operand at coordinate 0 of that axis. -/
theorem idx_repeat (bb : Fin 4) (s : Fin 4096) (r : Fin 4) (w : Fin 1024) :
    idx_main_v8 (ix6 (0 : Fin 1) bb (0 : Fin 1) s r w) = ix6 (0 : Fin 1) bb (0 : Fin 1) s (0 : Fin 1) w :=
  funext fun a => Fin.ext (by
    match a with | ⟨0, _⟩ => rfl | ⟨1, _⟩ => rfl | ⟨2, _⟩ => rfl | ⟨3, _⟩ => rfl | ⟨4, _⟩ => rfl | ⟨5, _⟩ => rfl)

/-- Which of the four copies column o falls in: o / 1024. -/
def copy (o : Fin 4096) : Fin 4 := ⟨o.val / 1024, by have := o.isLt; omega⟩

/-- Entry (bb, s, o) of the tiled array is entry (0, bb, 0, s, o / 1024, o mod 1024) of the broadcast: both sit at row-major
    position (bb·4096 + s)·4096 + o, because o = (o / 1024)·1024 + o mod 1024. -/
theorem tile_apply (x : (⟨S4x4096x4096, .f32⟩ : BufTy).Contents (Elt Ideal)) (A : (⟨S1024x1024, .f32⟩ : BufTy).Contents (Elt Ideal))
    (bb : Fin 4) (s o : Fin 4096) :
    val_main_v9 (F := Ideal) x A (ix3 bb s o)
      = val_main_v8 (F := Ideal) x A (ix6 (0 : Fin 1) bb (0 : Fin 1) s (copy o) (wrap o)) := by
  unfold val_main_v9
  exact shapeCast_apply _ shapeCasts_S1x4x1x4096x4x1024_S4x4096x4096 _ (ix6 (0 : Fin 1) bb (0 : Fin 1) s (copy o) (wrap o))
    (by rewrite [Shape.rowMajor_val_three, Shape.rowMajor_val_six]
        show ((((0 * 4 + bb.val) * 1 + 0) * 4096 + s.val) * 4 + o.val / 1024) * 1024 + o.val % 1024 = (bb.val * 4096 + s.val) * 4096 + o.val
        omega)

/-- The tiled second product at (bb, s, o) is the second product at (bb, s, o mod 1024). -/
theorem tiled_apply (x : (⟨S4x4096x4096, .f32⟩ : BufTy).Contents (Elt Ideal)) (A : (⟨S1024x1024, .f32⟩ : BufTy).Contents (Elt Ideal))
    (bb : Fin 4) (s o : Fin 4096) :
    val_main_v9 (F := Ideal) x A (ix3 bb s o) = val_main_v6 (F := Ideal) x A (ix3 bb s (wrap o)) := by
  rw [tile_apply, val_main_v8_apply, idx_repeat, unitAxes_apply]

/-! ## The result -/

/-- Entry (bb, s, o) of the reference's result is
    (∑ c, x[bb,s,c]·W[o,c] + b[o]) + ∑ t, (0 + ∑ g < 4, x[bb,s,1024·g+t])·A[o mod 1024, t]. -/
theorem val_main_v10_apply_ix3
    (x : (⟨S4x4096x4096, .f32⟩ : BufTy).Contents (Elt Ideal)) (W : (⟨S4096x4096, .f32⟩ : BufTy).Contents (Elt Ideal))
    (b : (⟨S4096, .f32⟩ : BufTy).Contents (Elt Ideal)) (A : (⟨S1024x1024, .f32⟩ : BufTy).Contents (Elt Ideal))
    (bb : Fin 4) (s : Fin 4096) (o : Fin 4096) :
    Cert.ReferenceIdeal.Read.val_main_v10 (F := Ideal) x W b A (ix3 bb s o)
      = Cert.Mora.refOut (fun c => x (ix3 bb s c)) (fun c => W (ix2 o c)) (b (ix1 o)) (fun t => A (ix2 (Cert.Mora.wrap o) t)) := by
  rw [val_main_v10_apply, linear_apply, tiled_apply, adapter_apply, Ideal.addf_def]
  rfl

end Cert.Mora.Ref

end
-- ==== Proof.RefResult.lean ====
import proofs.«143086_j89266600280130_1_alg».proof.Proof.RefValue
import proofs.«143086_j89266600280130_1_alg».proof.Proof.Result

/-!
  The reference's result array is the result function of its four argument arrays: the entry-by-entry reading of
  the reference's last stage, for every index.
-/

noncomputable section

open Idealize.ShloMosaic Idealize.ShloMosaic.ValueIdx

namespace Cert.Mora.Ref

open Cert.ReferenceIdeal

theorem val_main_v10_eq_result
    (x : (⟨S4x4096x4096, .f32⟩ : BufTy).Contents (Elt Ideal)) (W : (⟨S4096x4096, .f32⟩ : BufTy).Contents (Elt Ideal))
    (b : (⟨S4096, .f32⟩ : BufTy).Contents (Elt Ideal)) (A : (⟨S1024x1024, .f32⟩ : BufTy).Contents (Elt Ideal)) :
    Cert.ReferenceIdeal.Read.val_main_v10 (F := Ideal) x W b A = Cert.Mora.result x W b A :=
  funext fun i => (congrArg (Cert.ReferenceIdeal.Read.val_main_v10 (F := Ideal) x W b A) (eq_ix3 i)).trans
    (val_main_v10_apply_ix3 x W b A (i 0) (i 1) (i 2))

end Cert.Mora.Ref

end
-- ==== Proof.lean ====
/-
  The kernel computes  out = x·Wᵀ + b + tile(in_x·Aᵀ)  for x : [4, 4096, 4096], W : [4096, 4096], b : [4096], A : [1024, 1024],
  where in_x sums the four 1024-wide column blocks of x and tile repeats a 1024-wide row four times along the columns;
  the reference computes the same with two whole matrix products, a reshape-and-sum and a tile.

  Over the extended reals the two agree entry by entry. Entry (bb, s, o) depends on the row x[bb, s, ·], the row W[o, ·],
  the entry b[o] and the row A[o mod 1024, ·]. The reference returns

      (∑ c < 4096, x[c]·W[c] + b)  +  ∑ t < 1024, (0 + ∑ g < 4, x[1024·g + t])·A[t];

  the kernel walks the columns in four blocks of 1024, keeping a running sum of the blocks' products and a running sum of
  the blocks of x, both started at zero, and at the fourth block returns (products + b) + ∑ t, fold[t]·A[t]. A sum over
  4096 columns is the sum over its four blocks, and addition of extended reals is commutative and associative with unit 0:
  that is the whole algebra (Spec). Nothing is distributed or cancelled, so the finiteness of the inputs is not used.

  The modules: Spec (the arithmetic of one entry), Result (the result array as one function of the arguments), Payloads
  (the body's arithmetic at an index), Pieces (what one run of the body leaves, per control case), Blocks (where each block
  sits in its array), Invariant (the running sums after every grid point, by induction on the point), Final (the blocks
  written back tile the kernel's array), KernelRun (the reshapes around the kernel; the run), RefValue and RefResult (the
  reference's result at an index). The three programs' frames are the generated ones; the ideal pass rewrote nothing, so
  the idealization claim is trivial.
-/
import proofs.«143086_j89266600280130_1_alg».proof.Defs
import proofs.«143086_j89266600280130_1_alg».proof.Proof.Gen.Kernel
import proofs.«143086_j89266600280130_1_alg».proof.Proof.Gen.Kernel.Skeleton
import proofs.«143086_j89266600280130_1_alg».proof.Proof.Gen.Kernel.Launch
import proofs.«143086_j89266600280130_1_alg».proof.Proof.Gen.Kernel.Points
import proofs.«143086_j89266600280130_1_alg».proof.Proof.Gen.Kernel.Frame
import proofs.«143086_j89266600280130_1_alg».proof.Proof.Gen.KernelIdeal
import proofs.«143086_j89266600280130_1_alg».proof.Proof.Gen.KernelIdeal.Skeleton
import proofs.«143086_j89266600280130_1_alg».proof.Proof.Gen.KernelIdeal.Launch
import proofs.«143086_j89266600280130_1_alg».proof.Proof.Gen.KernelIdeal.Points
import proofs.«143086_j89266600280130_1_alg».proof.Proof.Gen.KernelIdeal.Frame
import proofs.«143086_j89266600280130_1_alg».proof.Proof.Gen.ReferenceIdeal
import proofs.«143086_j89266600280130_1_alg».proof.Proof.Gen.Pre_finite_inputs
import proofs.«143086_j89266600280130_1_alg».proof.Proof.Gen.ReferenceIdeal.Run
import proofs.«143086_j89266600280130_1_alg».proof.Proof.Gen.ReferenceIdeal.Read
import proofs.«143086_j89266600280130_1_alg».proof.Proof.KernelRun
import proofs.«143086_j89266600280130_1_alg».proof.Proof.RefResult
import Idealize.ShloMosaic.Adequacy
import Idealize.ShloMosaic.Init

noncomputable section

namespace Cert.Proof

open Idealize.ShloMosaic Idealize.SL.Sem

/-- The kernel as printed runs, and its arguments end unchanged. -/
theorem frame_k : Cert.frame_Kernel := fun m ρ _ => Cert.Kernel.Gen.frame m ρ

/-- The idealized kernel runs, and its arguments end unchanged. -/
theorem frame_ki : Cert.frame_KernelIdeal := fun m ρ _ => Cert.KernelIdeal.Gen.frame m ρ

/-- The idealized reference runs, and its arguments end unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with their results at the one result function of arguments that agree. -/
theorem algebraic : Cert.algebraic_KernelIdeal_ReferenceIdeal := by
  intro m ρ m' ρ' _ hagree
  refine ⟨fun c => Cert.Mora.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Mora.KRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v10_eq]
  exact Cert.Mora.Ref.val_main_v10_eq_result _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
